-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S2048x4096 : Shape := ⟨2, ![2048, 4096]⟩
abbrev S1x4096 : Shape := ⟨2, ![1, 4096]⟩
abbrev S128x1024 : Shape := ⟨2, ![128, 1024]⟩
abbrev S128x2048 : Shape := ⟨2, ![128, 2048]⟩
abbrev S128x4096 : Shape := ⟨2, ![128, 4096]⟩

abbrev nBuf : Space → Nat
  | .hbm => 18
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S2048x4096, .f32⟩
  | .hbm, ⟨14, _⟩ => ⟨S2048x4096, .bf16⟩
  | .hbm, ⟨15, _⟩ => ⟨S1x4096, .f32⟩
  | .hbm, ⟨16, _⟩ => ⟨S8192x1024, .f32⟩
  | .hbm, ⟨17, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S2048x4096, .bf16⟩
  | .local _ .vmem, ⟨7, _⟩ => ⟨S1x4096, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bitsLt_bf16_f32 : FTy.bits .bf16 < FTy.bits .f32
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  concatenates_S128x1024_S128x1024_S128x2048_d1 : Shape.Concatenates [S128x1024, S128x1024] S128x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S8192x1024.size a
  hwx0_5 : ∀ i : grid0.Coords, EltTy.bits .f32 = 32 ∨ (Rect.block (s := S8192x1024) S128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_arg1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S4096x2048 : Shape := ⟨2, ![4096, 2048]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8192x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.CellRunBits.lean ====
/-
  The run of the fused LSTM-cell program, up to and through its one launch, at any float instance.

  The program first lays the four gate weight matrices one under the other (a 4096 × 2048 matrix), transposes the
  stack, narrows it to the matrix unit's input format, lays the four gate biases end to end and reads them as one
  row; none of these five host steps writes an argument array.  The launch then walks 64 blocks of 128 batch rows.
  At a block the body reads the block's rows of the hidden state, of the input and of the cell state, the whole
  weight stack and the bias row (these two are fetched once and stay in place), and stores two 128 × 1024 tiles:
  the new hidden state and the new cell state.  Each store covers its tile whole, so what a tile holds after the
  body is a function of the five blocks read and of nothing the tile held before.

  Stated here: what the launch finds in every buffer (`V`), each window's block at a point (`iblk`), the two stored
  tiles as functions of the blocks (`hTile`, `cTile`), the body's triple, the launch's run with every array named,
  and that the eleven argument arrays end as they began.
-/
import proofs.«146950_j57432302682693_1_alg».proof.Proof.Gen.Kernel.Launch
import proofs.«146950_j57432302682693_1_alg».proof.Proof.Gen.Kernel.Skeleton
import proofs.«146950_j57432302682693_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What each buffer of core `c` holds when the launch is reached: the five host steps applied to the starting memory. -/
abbrev V (c : Dev nD) (b : Ref sig .tc) : Buf (Elt F) ((c : Thread nD τ).loc b) := StableHlo.after hostOps0 (fun b => m (c, b)) b

/-- None of the five host steps allocates. -/
theorem hostOps0_fresh : (hostOps0 : List (HloOp τ sig (Elt F))).Forall fun op => op.fresh = ∅ := by
  simp only [List.Forall]; repeat' constructor

/-- The program is the five host steps and then the launch, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as the run started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 1: the launch finds it as the run started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 2: the launch finds it as the run started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 3: the launch finds it as the run started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 4: the launch finds it as the run started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 5: the launch finds it as the run started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 6: the launch finds it as the run started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 7: the launch finds it as the run started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 8: the launch finds it as the run started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 9: the launch finds it as the run started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 10: the launch finds it as the run started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each of the five read windows has its block in place at every point: three are fetched at every point, and the
    weight stack and the bias row, fetched at the first point, keep one block index throughout. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run that names every array -/

/-- From a run ending with every array of the launch at what the proof data computes and every other buffer as the
    launch found it: the three staged argument arrays are read windows (their array is never written back), and the
    eight weight and bias arrays are touched by no window; each is then as the run started, by `V_main_arg…`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each load and each store is of a whole staging buffer -/

abbrev rRows : Rect S128x1024 := Rect.unit (s := S128x1024) ![0, 0] S128x1024.size inb_S128x1024_S128x1024_0_0
abbrev rStack : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-! ## What the body leaves in the two output tiles -/

/-- The new hidden state's tile after the body, from the blocks of hidden state `h`, input `x`, cell state `c₀`,
    weight stack `w` and bias row `b`: its one store. -/
def hTile (h x c₀ : Vec F S128x1024 .f32) (w : Vec F S2048x4096 .bf16) (b : Vec F S1x4096 .f32) : Vec F S128x1024 .f32 :=
  View.canon [⟨rRows, k0_pay3 (View.ld h rRows) (View.ld x rRows) (View.ld w rStack) (View.ld b rBias) (View.ld c₀ rRows)⟩]

/-- The new cell state's tile after the body: its one store. -/
def cTile (h x c₀ : Vec F S128x1024 .f32) (w : Vec F S2048x4096 .bf16) (b : Vec F S1x4096 .f32) : Vec F S128x1024 .f32 :=
  View.canon [⟨rRows, k0_pay2 (View.ld h rRows) (View.ld x rRows) (View.ld w rStack) (View.ld b rBias) (View.ld c₀ rRows)⟩]

/-- One store of the whole rectangle covers the tile. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1000000 in
/-- The body on whole staging buffers — the five read ones at contents `h x c₀ w b`, the two tiles at anything — runs
    to its end leaving the read ones as they were and the tiles at `hTile` and `cTile` of them. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S128x1024 .f32) (harg6 : arg6.IsWhole)
    (arg7 : Memref sig .tc .vmem S128x1024 .f32) (harg7 : arg7.IsWhole)
    (h x c₀ : Vec F S128x1024 .f32) (w : Vec F S2048x4096 .bf16) (b : Vec F S1x4096 .f32) (K : PUnit → sProp 𝕄) :
    iprop(owns (c : Thread nD τ) arg1 fullShare h ∗ owns (c : Thread nD τ) arg2 fullShare x ∗ owns (c : Thread nD τ) arg3 fullShare c₀
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare h ∗ owns (c : Thread nD τ) arg2 fullShare x ∗ owns (c : Thread nD τ) arg3 fullShare c₀
            ∗ owns (c : Thread nD τ) arg4 fullShare w ∗ owns (c : Thread nD τ) arg5 fullShare b
            ∗ owns (c : Thread nD τ) arg6 fullShare (hTile h x c₀ w b) ∗ owns (c : Thread nD τ) arg7 fullShare (cTile h x c₀ w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The launch's proof data -/

/-- On core `c`: the arrays as the launch finds them; after the body at point `t` each read window's buffer at its
    block and the two tiles at `hTile` and `cTile` of the five blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hTile (iblk m c 0 t) (iblk m c 1 t) (iblk m c 2 t) (iblk m c 3 t) (iblk m c 4 t)
    | ⟨6, _⟩ => cTile (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hTile (iblk m c 0 t) (iblk m c 1 t) (iblk m c 2 t) (iblk m c 3 t) (iblk m c 4 t) := by dsimp only [dats]
theorem after0_6 (c : Dev nD) (t : Fin cfg0.N) : (dats m 0 c).after 6 t = cTile (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the read buffers hold their blocks, so the body's triple applies; the rest of the core passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run, and the argument arrays -/

set_option backward.isDefEq.respectTransparency.types false in
/-- From any memory with zero counters every weakly fair execution of the program ends, with every array of the launch
    at what the proof data computes and every other buffer of the cores as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its eleven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.CellRunIdeal.lean ====
/-
  The run of the fused LSTM-cell program, up to and through its one launch, at any float instance.

  The program first lays the four gate weight matrices one under the other (a 4096 × 2048 matrix), transposes the
  stack, narrows it to the matrix unit's input format, lays the four gate biases end to end and reads them as one
  row; none of these five host steps writes an argument array.  The launch then walks 64 blocks of 128 batch rows.
  At a block the body reads the block's rows of the hidden state, of the input and of the cell state, the whole
  weight stack and the bias row (these two are fetched once and stay in place), and stores two 128 × 1024 tiles:
  the new hidden state and the new cell state.  Each store covers its tile whole, so what a tile holds after the
  body is a function of the five blocks read and of nothing the tile held before.

  Stated here: what the launch finds in every buffer (`V`), each window's block at a point (`iblk`), the two stored
  tiles as functions of the blocks (`hTile`, `cTile`), the body's triple, the launch's run with every array named,
  and that the eleven argument arrays end as they began.
-/
import proofs.«146950_j57432302682693_1_alg».proof.Proof.Gen.KernelIdeal.Launch
import proofs.«146950_j57432302682693_1_alg».proof.Proof.Gen.KernelIdeal.Skeleton
import proofs.«146950_j57432302682693_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What each buffer of core `c` holds when the launch is reached: the five host steps applied to the starting memory. -/
abbrev V (c : Dev nD) (b : Ref sig .tc) : Buf (Elt F) ((c : Thread nD τ).loc b) := StableHlo.after hostOps0 (fun b => m (c, b)) b

/-- None of the five host steps allocates. -/
theorem hostOps0_fresh : (hostOps0 : List (HloOp τ sig (Elt F))).Forall fun op => op.fresh = ∅ := by
  simp only [List.Forall]; repeat' constructor

/-- The program is the five host steps and then the launch, which therefore starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as the run started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 1: the launch finds it as the run started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 2: the launch finds it as the run started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 3: the launch finds it as the run started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 4: the launch finds it as the run started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 5: the launch finds it as the run started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 6: the launch finds it as the run started. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 7: the launch finds it as the run started. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 8: the launch finds it as the run started. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 9: the launch finds it as the run started. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the launch writes argument 10: the launch finds it as the run started. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each of the five read windows has its block in place at every point: three are fetched at every point, and the
    weight stack and the bias row, fetched at the first point, keep one block index throughout. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run that names every array -/

/-- From a run ending with every array of the launch at what the proof data computes and every other buffer as the
    launch found it: the three staged argument arrays are read windows (their array is never written back), and the
    eight weight and bias arrays are touched by no window; each is then as the run started, by `V_main_arg…`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses: each load and each store is of a whole staging buffer -/

abbrev rRows : Rect S128x1024 := Rect.unit (s := S128x1024) ![0, 0] S128x1024.size inb_S128x1024_S128x1024_0_0
abbrev rStack : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-! ## What the body leaves in the two output tiles -/

/-- The new hidden state's tile after the body, from the blocks of hidden state `h`, input `x`, cell state `c₀`,
    weight stack `w` and bias row `b`: its one store. -/
def hTile (h x c₀ : Vec F S128x1024 .f32) (w : Vec F S2048x4096 .bf16) (b : Vec F S1x4096 .f32) : Vec F S128x1024 .f32 :=
  View.canon [⟨rRows, k0_pay3 (View.ld h rRows) (View.ld x rRows) (View.ld w rStack) (View.ld b rBias) (View.ld c₀ rRows)⟩]

/-- The new cell state's tile after the body: its one store. -/
def cTile (h x c₀ : Vec F S128x1024 .f32) (w : Vec F S2048x4096 .bf16) (b : Vec F S1x4096 .f32) : Vec F S128x1024 .f32 :=
  View.canon [⟨rRows, k0_pay2 (View.ld h rRows) (View.ld x rRows) (View.ld w rStack) (View.ld b rBias) (View.ld c₀ rRows)⟩]

/-- One store of the whole rectangle covers the tile. -/
theorem cover_rows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1000000 in
/-- The body on whole staging buffers — the five read ones at contents `h x c₀ w b`, the two tiles at anything — runs
    to its end leaving the read ones as they were and the tiles at `hTile` and `cTile` of them. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S128x1024 .f32) (harg6 : arg6.IsWhole)
    (arg7 : Memref sig .tc .vmem S128x1024 .f32) (harg7 : arg7.IsWhole)
    (h x c₀ : Vec F S128x1024 .f32) (w : Vec F S2048x4096 .bf16) (b : Vec F S1x4096 .f32) (K : PUnit → sProp 𝕄) :
    iprop(owns (c : Thread nD τ) arg1 fullShare h ∗ owns (c : Thread nD τ) arg2 fullShare x ∗ owns (c : Thread nD τ) arg3 fullShare c₀
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare h ∗ owns (c : Thread nD τ) arg2 fullShare x ∗ owns (c : Thread nD τ) arg3 fullShare c₀
            ∗ owns (c : Thread nD τ) arg4 fullShare w ∗ owns (c : Thread nD τ) arg5 fullShare b
            ∗ owns (c : Thread nD τ) arg6 fullShare (hTile h x c₀ w b) ∗ owns (c : Thread nD τ) arg7 fullShare (cTile h x c₀ w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

/-! ## The launch's proof data -/

/-- On core `c`: the arrays as the launch finds them; after the body at point `t` each read window's buffer at its
    block and the two tiles at `hTile` and `cTile` of the five blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hTile (iblk m c 0 t) (iblk m c 1 t) (iblk m c 2 t) (iblk m c 3 t) (iblk m c 4 t)
    | ⟨6, _⟩ => cTile (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hTile (iblk m c 0 t) (iblk m c 1 t) (iblk m c 2 t) (iblk m c 3 t) (iblk m c 4 t) := by dsimp only [dats]
theorem after0_6 (c : Dev nD) (t : Fin cfg0.N) : (dats m 0 c).after 6 t = cTile (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the read buffers hold their blocks, so the body's triple applies; the rest of the core passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run, and the argument arrays -/

set_option backward.isDefEq.respectTransparency.types false in
/-- From any memory with zero counters every weakly fair execution of the program ends, with every array of the launch
    at what the proof data computes and every other buffer of the cores as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its eleven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.CellSpec.lean ====
/-
  One step of an LSTM cell over a batch, as a function of its inputs, entry by entry on the extended reals.

  Write `X` for the 8192 × 2048 matrix whose row `r` is the hidden state's row `r` followed by the input's row `r`,
  `W` for the 2048 × 4096 matrix of the four gates' weights (forget, input, output, candidate: 1024 columns each),
  `bs` for the 4096 gate biases and `c` for the cell state. The gate pre-activations are the affine map

      gate r n = (∑ k, X r k · W k n) + bs n,

  and with σ the logistic function the step is

      cellNew   r j = σ (gate r j) · c r j + σ (gate r (1024 + j)) · tanh (gate r (3072 + j)),
      hiddenNew r j = σ (gate r (2048 + j)) · tanh (cellNew r j).

  Nothing here needs the entries to be finite: the two programs compared against this function compute it by the same
  operations in the same order, differing only in how the rows are cut into blocks and in how σ is spelt, and
  `1 / (1 + e^(−x))` IS σ on every extended real (`logistic_spelt`).
-/
import Idealize.ShloMosaic.PureOps.Ideal
import Idealize.ShloMosaic.PureOps.Ideal.Laws
import Idealize.ShloMosaic.Lib.ValueIdx

noncomputable section

open scoped BigOperators

namespace Cert.CellSpec

open Idealize.ShloMosaic Idealize.ShloMosaic.ValueIdx

/-- The column of gate `g` (0 forget, 1 input, 2 output, 3 candidate) for unit `j`, in the 4096-wide gate row. -/
abbrev colF (j : Fin 1024) : Fin 4096 := ⟨j.val, by omega⟩
abbrev colI (j : Fin 1024) : Fin 4096 := ⟨1024 + j.val, by omega⟩
abbrev colO (j : Fin 1024) : Fin 4096 := ⟨2048 + j.val, by omega⟩
abbrev colC (j : Fin 1024) : Fin 4096 := ⟨3072 + j.val, by omega⟩

variable (X : (⟨2, ![8192, 2048]⟩ : Shape).Idx → EReal) (W : (⟨2, ![2048, 4096]⟩ : Shape).Idx → EReal)
  (bs : (⟨1, ![4096]⟩ : Shape).Idx → EReal) (c : (⟨2, ![8192, 1024]⟩ : Shape).Idx → EReal)

/-- The gate pre-activation of batch row `r` at gate column `n`. -/
def gate (r : Fin 8192) (n : Fin 4096) : EReal := (∑ k : Fin 2048, X (ix2 r k) * W (ix2 k n)) + bs (ix1 n)

/-- The new cell state at batch row `r`, unit `j`. -/
def cellNewAt (r : Fin 8192) (j : Fin 1024) : EReal :=
  Ideal.logistic (gate X W bs r (colF j)) * c (ix2 r j)
    + Ideal.logistic (gate X W bs r (colI j)) * Ideal.tanh (gate X W bs r (colC j))

/-- The new hidden state at batch row `r`, unit `j`. -/
def hiddenNewAt (r : Fin 8192) (j : Fin 1024) : EReal :=
  Ideal.logistic (gate X W bs r (colO j)) * Ideal.tanh (cellNewAt X W bs c r j)

/-- The new cell state, as an array. -/
def cellNew : (⟨2, ![8192, 1024]⟩ : Shape).Idx → EReal := fun i => cellNewAt X W bs c (i 0) (i 1)

/-- The new hidden state, as an array. -/
def hiddenNew : (⟨2, ![8192, 1024]⟩ : Shape).Idx → EReal := fun i => hiddenNewAt X W bs c (i 0) (i 1)

theorem cellNew_ix2 (r : Fin 8192) (j : Fin 1024) : cellNew X W bs c (ix2 r j) = cellNewAt X W bs c r j := rfl
theorem hiddenNew_ix2 (r : Fin 8192) (j : Fin 1024) : hiddenNew X W bs c (ix2 r j) = hiddenNewAt X W bs c r j := rfl

/-- The single-precision word `0x3F800000` is the number one. -/
theorem one_f32 : Ideal.ofBits .f32 0x3F800000#32 = 1 := by
  simp [Ideal.ofBits, Ideal.ieee, -EReal.coe_mul]; norm_num

/-- `1 / (1 + e^(−x))`, in a host program's operations, is the logistic function of `x`. -/
theorem logistic_spelt (x : EReal) :
    FloatOps.hostDivf (F := Ideal) (φ := .f32) 1 (FloatOps.addf (F := Ideal) (φ := .f32) 1 (FloatOps.hostUnary (F := Ideal) (φ := .f32) .exp (FloatOps.hostNegf (F := Ideal) (φ := .f32) x)))
      = Ideal.logistic x := rfl

end Cert.CellSpec

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.CellTile.lean ====
/-
  One 128-row tile of the launch's two results, read at an entry.

  At a block the body joins the block's rows of hidden state and input into a 128 × 2048 matrix, multiplies it by
  the 2048 × 4096 weight stack into a zero accumulator, adds the bias row to every row, cuts the 4096 columns into
  the four gates, and forms the two gated products; the narrowing of the joined rows to the matrix unit's input
  format is the identity on extended reals. So at row `p` of the block, gate column `n`, the pre-activation is

      preB p n = (∑ k, joined p k · w k n) + b 0 n,

  and the two stored tiles are σ, tanh and the gated products of those (`pay2_at`, `pay3_at`). If the block's rows are
  rows `r` of the whole arrays (hypotheses `hX`, `hC`) and the weight stack and bias row are the whole arrays'
  (`hW`, `hB`), the tiles' entries are the specification's at row `r` (`cTile_spec`, `hTile_spec`).
-/
import proofs.«146950_j57432302682693_1_alg».proof.Proof.CellRunIdeal
import proofs.«146950_j57432302682693_1_alg».proof.Proof.CellSpec
import proofs.«146950_j57432302682693_1_alg».proof.Proof.LibDot
import Idealize.ShloMosaic.Lib.Pipeline.Value
import Idealize.ShloMosaic.Lib.ValueIdx

noncomputable section

open scoped BigOperators

namespace Cert.KernelIdeal.Tile

open Cert.KernelIdeal Cert.KernelIdeal.Gen Cert.KernelIdeal.Cell
open Idealize.ShloMosaic Idealize.ShloMosaic.TcCoe Idealize.ShloMosaic.ValueIdx Cert.CellSpec

/-- The logistic function and tanh of a vector, at an index. -/
theorem logistic_at {s : Shape} {φ : FTy} (a : FVec Ideal s φ) (i : s.Idx) : Idealize.ShloMosaic.logistic a i = Ideal.logistic (a i) := rfl
theorem tanh_at {s : Shape} {φ : FTy} (a : FVec Ideal s φ) (i : s.Idx) : Idealize.ShloMosaic.tanh a i = Ideal.tanh (a i) := rfl

/-- Both offsets of a whole-buffer access are zero. -/
theorem hz : (![0, 0] : Fin 2 → Nat) = fun _ => 0 := funext fun a => by fin_cases a <;> rfl

variable (hb xb cb : Vec Ideal S128x1024 .f32) (w : Vec Ideal S2048x4096 .bf16) (b : Vec Ideal S1x4096 .f32)

/-- The pre-activation of the block's row `p` at gate column `n`. -/
def preB (p : Fin 128) (n : Fin 4096) : EReal :=
  (∑ k : Fin 2048, (concatenate S128x2048 1 [⟨S128x1024, hb⟩, ⟨S128x1024, xb⟩] concatenates_S128x1024_S128x1024_S128x2048_d1) (ix2 p k) * w (ix2 k n)) + b (ix2 0 n)

/-- The body's biased product at `(p, n)`: the product into the zero accumulator is the plain sum, the format change
    and the two same-shape casts are identities, and the broadcast bias row is read at column `n`. -/
theorem pre_at (p : Fin 128) (n : Fin 4096) : k0_pay1 (F := Ideal) hb xb w b (ix2 p n) = preB hb xb w b p n := by
  unfold k0_pay1 preB
  rw [addf_apply, Cert.LibDot.matmul_zero_apply dot_S128x2048_S2048x4096_S128x4096_1_0_0_1_n_n rfl rfl rfl rfl rfl rfl]
  simp only [truncf_apply, shapeCast_self]
  rw [broadcastTo_apply b broadcasts_S1x4096_S128x4096 (ix2 p n) (ix2 0 n) (fun a => by
    match a with
    | ⟨0, _⟩ => rfl
    | ⟨1, _⟩ => rfl)]

/-- The stored new cell state at `(p, j)`: the forget and input gates' columns `j` and `1024 + j`, the candidate's `3072 + j`. -/
theorem pay2_at (p : Fin 128) (j : Fin 1024) :
    k0_pay2 (F := Ideal) hb xb w b cb (ix2 p j)
      = Ideal.logistic (preB hb xb w b p (colF j)) * cb (ix2 p j)
        + Ideal.logistic (preB hb xb w b p (colI j)) * Ideal.tanh (preB hb xb w b p (colC j)) := by
  unfold k0_pay2
  rw [addf_apply, mulf_apply, mulf_apply, logistic_at, logistic_at, tanh_at,
    extractStridedSlice_apply ![0, 0] _ slices_S128x4096_o0_0_S128x1024 (ix2 p j) (ix2 p (colF j)) (fun a => by
      match a with
      | ⟨0, _⟩ => show p.val = 0 + p.val; omega
      | ⟨1, _⟩ => show j.val = 0 + j.val; omega),
    extractStridedSlice_apply ![0, 1024] _ slices_S128x4096_o0_1024_S128x1024 (ix2 p j) (ix2 p (colI j)) (fun a => by
      match a with
      | ⟨0, _⟩ => show p.val = 0 + p.val; omega
      | ⟨1, _⟩ => rfl),
    extractStridedSlice_apply ![0, 3072] _ slices_S128x4096_o0_3072_S128x1024 (ix2 p j) (ix2 p (colC j)) (fun a => by
      match a with
      | ⟨0, _⟩ => show p.val = 0 + p.val; omega
      | ⟨1, _⟩ => rfl),
    pre_at, pre_at, pre_at]

/-- The stored new hidden state at `(p, j)`: the output gate's column `2048 + j` and the new cell state there. -/
theorem pay3_at (p : Fin 128) (j : Fin 1024) :
    k0_pay3 (F := Ideal) hb xb w b cb (ix2 p j)
      = Ideal.logistic (preB hb xb w b p (colO j)) * Ideal.tanh (k0_pay2 (F := Ideal) hb xb w b cb (ix2 p j)) := by
  unfold k0_pay3
  rw [mulf_apply, logistic_at, tanh_at,
    extractStridedSlice_apply ![0, 2048] _ slices_S128x4096_o0_2048_S128x1024 (ix2 p j) (ix2 p (colO j)) (fun a => by
      match a with
      | ⟨0, _⟩ => show p.val = 0 + p.val; omega
      | ⟨1, _⟩ => rfl),
    pre_at]

/-- Each tile is its one whole-buffer store's value of the whole buffers read. -/
theorem cTile_eq : cTile hb xb cb w b = k0_pay2 (F := Ideal) hb xb w b cb := by
  unfold cTile
  rw [View.canon_unit_zero hz]
  simp only [View.ld_unit_zero (S := S128x1024) hz, View.ld_unit_zero (S := S2048x4096) hz, View.ld_unit_zero (S := S1x4096) hz]
theorem hTile_eq : hTile hb xb cb w b = k0_pay3 (F := Ideal) hb xb w b cb := by
  unfold hTile
  rw [View.canon_unit_zero hz]
  simp only [View.ld_unit_zero (S := S128x1024) hz, View.ld_unit_zero (S := S2048x4096) hz, View.ld_unit_zero (S := S1x4096) hz]

/-! ## Against the whole arrays -/

/-- The block's joined row `p` is the whole arrays' joined row `r` when the two blocks' rows `p` are the arrays' rows `r`:
    a column below 1024 falls in the first piece on both sides, a later one in the second, 1024 columns on. -/
theorem joined_at (H Xin : (⟨2, ![8192, 1024]⟩ : Shape).Idx → EReal)
    (h2 : Shape.Concatenates [(⟨2, ![8192, 1024]⟩ : Shape), (⟨2, ![8192, 1024]⟩ : Shape)] (⟨2, ![8192, 2048]⟩ : Shape) 1)
    (r : Fin 8192) (p : Fin 128) (hh : ∀ k : Fin 1024, hb (ix2 p k) = H (ix2 r k)) (hx : ∀ k : Fin 1024, xb (ix2 p k) = Xin (ix2 r k))
    (k : Fin 2048) :
    (concatenate S128x2048 1 [⟨S128x1024, hb⟩, ⟨S128x1024, xb⟩] concatenates_S128x1024_S128x1024_S128x2048_d1) (ix2 p k)
      = (concatenate (⟨2, ![8192, 2048]⟩ : Shape) 1 [⟨(⟨2, ![8192, 1024]⟩ : Shape), H⟩, ⟨(⟨2, ![8192, 1024]⟩ : Shape), Xin⟩] h2) (ix2 r k) := by
  by_cases hk : k.val < 1024
  · rw [concatenate_pair_apply_left 1 hb xb concatenates_S128x1024_S128x1024_S128x2048_d1 (ix2 p k) rfl (ix2 p ⟨k.val, hk⟩) (fun a => by
        match a with
        | ⟨0, _⟩ => rfl
        | ⟨1, _⟩ => rfl),
      concatenate_pair_apply_left 1 H Xin h2 (ix2 r k) rfl (ix2 r ⟨k.val, hk⟩) (fun a => by
        match a with
        | ⟨0, _⟩ => rfl
        | ⟨1, _⟩ => rfl)]
    exact hh _
  · have hk' : k.val - 1024 < 1024 := by have := k.isLt; omega
    rw [concatenate_pair_apply_right 1 hb xb concatenates_S128x1024_S128x1024_S128x2048_d1 (ix2 p k) rfl rfl (ix2 p ⟨k.val - 1024, hk'⟩) (fun a ha => by
        match a with
        | ⟨0, _⟩ => rfl
        | ⟨1, _⟩ => exact absurd rfl ha) (by show k.val - 1024 + 1024 = k.val; omega),
      concatenate_pair_apply_right 1 H Xin h2 (ix2 r k) rfl rfl (ix2 r ⟨k.val - 1024, hk'⟩) (fun a ha => by
        match a with
        | ⟨0, _⟩ => rfl
        | ⟨1, _⟩ => exact absurd rfl ha) (by show k.val - 1024 + 1024 = k.val; omega)]
    exact hx _

variable (X : (⟨2, ![8192, 2048]⟩ : Shape).Idx → EReal) (W : (⟨2, ![2048, 4096]⟩ : Shape).Idx → EReal)
  (bs : (⟨1, ![4096]⟩ : Shape).Idx → EReal) (C : (⟨2, ![8192, 1024]⟩ : Shape).Idx → EReal)

/-- The block's pre-activation at row `p` is the specification's at row `r`. -/
theorem preB_spec (r : Fin 8192) (p : Fin 128)
    (hX : ∀ k : Fin 2048, (concatenate S128x2048 1 [⟨S128x1024, hb⟩, ⟨S128x1024, xb⟩] concatenates_S128x1024_S128x1024_S128x2048_d1) (ix2 p k) = X (ix2 r k))
    (hW : ∀ (k : Fin 2048) (n : Fin 4096), w (ix2 k n) = W (ix2 k n)) (hB : ∀ n : Fin 4096, b (ix2 0 n) = bs (ix1 n)) (n : Fin 4096) :
    preB hb xb w b p n = gate X W bs r n := by
  unfold preB gate
  simp only [hX, hW, hB]

/-- The new cell state's tile at `(p, j)` is the specification's at `(r, j)`. -/
theorem cTile_spec (r : Fin 8192) (p : Fin 128)
    (hX : ∀ k : Fin 2048, (concatenate S128x2048 1 [⟨S128x1024, hb⟩, ⟨S128x1024, xb⟩] concatenates_S128x1024_S128x1024_S128x2048_d1) (ix2 p k) = X (ix2 r k))
    (hW : ∀ (k : Fin 2048) (n : Fin 4096), w (ix2 k n) = W (ix2 k n)) (hB : ∀ n : Fin 4096, b (ix2 0 n) = bs (ix1 n))
    (hC : ∀ j : Fin 1024, cb (ix2 p j) = C (ix2 r j)) (j : Fin 1024) :
    cTile hb xb cb w b (ix2 p j) = cellNewAt X W bs C r j := by
  rw [cTile_eq, pay2_at, preB_spec hb xb w b X W bs r p hX hW hB, preB_spec hb xb w b X W bs r p hX hW hB,
    preB_spec hb xb w b X W bs r p hX hW hB, hC]
  rfl

/-- The new hidden state's tile at `(p, j)` is the specification's at `(r, j)`. -/
theorem hTile_spec (r : Fin 8192) (p : Fin 128)
    (hX : ∀ k : Fin 2048, (concatenate S128x2048 1 [⟨S128x1024, hb⟩, ⟨S128x1024, xb⟩] concatenates_S128x1024_S128x1024_S128x2048_d1) (ix2 p k) = X (ix2 r k))
    (hW : ∀ (k : Fin 2048) (n : Fin 4096), w (ix2 k n) = W (ix2 k n)) (hB : ∀ n : Fin 4096, b (ix2 0 n) = bs (ix1 n))
    (hC : ∀ j : Fin 1024, cb (ix2 p j) = C (ix2 r j)) (j : Fin 1024) :
    hTile hb xb cb w b (ix2 p j) = hiddenNewAt X W bs C r j := by
  rw [hTile_eq, pay3_at, preB_spec hb xb w b X W bs r p hX hW hB, ← cTile_eq, cTile_spec hb xb cb w b X W bs C r p hX hW hB hC]
  rfl

end Cert.KernelIdeal.Tile

end
-- ==== Proof.CellArrays.lean ====
/-
  The launch's two result arrays, whole, as the cell step of the arrays the program started from.

  Block `t` of the 64 holds batch rows `128·t … 128·t + 127`: the hidden-state, input and cell-state windows move with
  the block (block index `(t, 0)`), the weight stack and the bias row are one block each (index `(0, 0)` at every
  point), and the two result windows are written back at every point at index `(t, 0)`. So row `p` of what a point
  reads is row `128·t + p` of the arrays, what it writes back is rows `128·t …` of the specification's two arrays
  (`flushed5_eq`, `flushed6_eq`), and since every row lies in block `row / 128` the blocks cover the arrays
  (`cover5`, `cover6`): after the run the two arrays ARE the specification's. What the launch finds in the
  weight-stack and bias buffers is what the five host steps left there (`V_stack`, `V_bias`): the stacked, transposed
  weights — their narrowing is the identity on extended reals — and the joined biases read as one row.
-/
import proofs.«146950_j57432302682693_1_alg».proof.Proof.CellRunIdeal
import proofs.«146950_j57432302682693_1_alg».proof.Proof.CellTile
import proofs.«146950_j57432302682693_1_alg».proof.Proof.CellSpec
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Cert.KernelIdeal.Cell Cert.KernelIdeal.Tile
open Idealize.ShloMosaic Idealize.ShloMosaic.TcCoe Idealize.ShloMosaic.ValueIdx Idealize.SL.Sem Idealize.ShloMosaic.StableHlo Cert.CellSpec
open Idealize.ShloMosaic.Pipeline (Dat)

variable (m : (ℓ : Loc nD τ sig) → Buf (Elt Ideal) ℓ) (ρ : Dev nD → PrngReg)

/-! ## What the host steps leave in the weight-stack and bias buffers -/

theorem V_stack (c : Dev nD) :
    V m c main_v3
      = truncf (F := Ideal) .bf16 (transpose S2048x4096 [1, 0] (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0) transposes_S4096x2048_S2048x4096_1_0) bitsLt_bf16_f32 := by
  dsimp only [V, hostOps0]
  after_results
  rfl

theorem V_bias (c : Dev nD) :
    V m c main_v4
      = shapeCast (α := Ideal .f32) S1x4096 (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0) shapeCasts_S4096_S1x4096 := by
  dsimp only [V, hostOps0]
  after_results
  rfl

/-! ## The schedule -/

/-- Every window's block index at every point, decided over the 64 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt64 (t : Fin cfg0.N) : t.val < 64 := lt_of_lt_of_eq t.isLt N_0

/-- The batch row that row `p` of block `t` is. -/
def row (t : Fin cfg0.N) (p : Fin 128) : Fin 8192 := ⟨128 * t.val + p.val, by have := lt64 t; have := p.isLt; omega⟩

/-! ## The blocks a point reads -/

/-- Row `p` of the hidden state's block at point `t` is row `128·t + p` of the hidden state. -/
theorem rows0_at (c : Dev nD) (t : Fin cfg0.N) (p : Fin 128) (k : Fin 1024) :
    iblk m c 0 t (ix2 p k) = V m c main_arg1 (ix2 (row t p) k) := by
  obtain ⟨e00, e01, e10, e11, e20, e21, e30, e31, e40, e41, e50, e51, e60, e61⟩ := idx_facts t
  unfold iblk
  show V m c main_arg1 (((cfg0.win 0).blk t).view.emb (ix2 p k)) = V m c main_arg1 (ix2 (row t p) k)
  refine congrArg (V m c main_arg1) (funext fun a => Fin.ext ?_)
  match a with
  | ⟨0, _⟩ => show win0_0.index t (0 : Fin 2) * 128 + 1 * p.val = 128 * t.val + p.val; omega
  | ⟨1, _⟩ => show win0_0.index t (1 : Fin 2) * 1024 + 1 * k.val = k.val; omega
/-- The same for the input. -/
theorem rows1_at (c : Dev nD) (t : Fin cfg0.N) (p : Fin 128) (k : Fin 1024) :
    iblk m c 1 t (ix2 p k) = V m c main_arg0 (ix2 (row t p) k) := by
  obtain ⟨e00, e01, e10, e11, e20, e21, e30, e31, e40, e41, e50, e51, e60, e61⟩ := idx_facts t
  unfold iblk
  show V m c main_arg0 (((cfg0.win 1).blk t).view.emb (ix2 p k)) = V m c main_arg0 (ix2 (row t p) k)
  refine congrArg (V m c main_arg0) (funext fun a => Fin.ext ?_)
  match a with
  | ⟨0, _⟩ => show win0_1.index t (0 : Fin 2) * 128 + 1 * p.val = 128 * t.val + p.val; omega
  | ⟨1, _⟩ => show win0_1.index t (1 : Fin 2) * 1024 + 1 * k.val = k.val; omega
/-- The same for the cell state. -/
theorem rows2_at (c : Dev nD) (t : Fin cfg0.N) (p : Fin 128) (k : Fin 1024) :
    iblk m c 2 t (ix2 p k) = V m c main_arg2 (ix2 (row t p) k) := by
  obtain ⟨e00, e01, e10, e11, e20, e21, e30, e31, e40, e41, e50, e51, e60, e61⟩ := idx_facts t
  unfold iblk
  show V m c main_arg2 (((cfg0.win 2).blk t).view.emb (ix2 p k)) = V m c main_arg2 (ix2 (row t p) k)
  refine congrArg (V m c main_arg2) (funext fun a => Fin.ext ?_)
  match a with
  | ⟨0, _⟩ => show win0_2.index t (0 : Fin 2) * 128 + 1 * p.val = 128 * t.val + p.val; omega
  | ⟨1, _⟩ => show win0_2.index t (1 : Fin 2) * 1024 + 1 * k.val = k.val; omega
/-- The weight-stack window's one block is the whole stack. -/
theorem stack_at (c : Dev nD) (t : Fin cfg0.N) (k : Fin 2048) (n : Fin 4096) :
    iblk m c 3 t (ix2 k n) = V m c main_v3 (ix2 k n) := by
  obtain ⟨e00, e01, e10, e11, e20, e21, e30, e31, e40, e41, e50, e51, e60, e61⟩ := idx_facts t
  unfold iblk
  show V m c main_v3 (((cfg0.win 3).blk t).view.emb (ix2 k n)) = V m c main_v3 (ix2 k n)
  refine congrArg (V m c main_v3) (funext fun a => Fin.ext ?_)
  match a with
  | ⟨0, _⟩ => show win0_3.index t (0 : Fin 2) * 2048 + 1 * k.val = k.val; omega
  | ⟨1, _⟩ => show win0_3.index t (1 : Fin 2) * 4096 + 1 * n.val = n.val; omega
/-- The bias window's one block is the whole bias row. -/
theorem bias_at (c : Dev nD) (t : Fin cfg0.N) (n : Fin 4096) :
    iblk m c 4 t (ix2 (0 : Fin 1) n) = V m c main_v4 (ix2 (0 : Fin 1) n) := by
  obtain ⟨e00, e01, e10, e11, e20, e21, e30, e31, e40, e41, e50, e51, e60, e61⟩ := idx_facts t
  unfold iblk
  show V m c main_v4 (((cfg0.win 4).blk t).view.emb (ix2 (0 : Fin 1) n)) = V m c main_v4 (ix2 (0 : Fin 1) n)
  refine congrArg (V m c main_v4) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 4096 + 1 * n.val = n.val; omega

/-! ## The specification's inputs, as the launch finds them -/

variable (h2 : Shape.Concatenates [(⟨2, ![8192, 1024]⟩ : Shape), (⟨2, ![8192, 1024]⟩ : Shape)] (⟨2, ![8192, 2048]⟩ : Shape) 1)

/-- Hidden state and input joined row by row. -/
abbrev Xof (c : Dev nD) : (⟨2, ![8192, 2048]⟩ : Shape).Idx → EReal :=
  concatenate (⟨2, ![8192, 2048]⟩ : Shape) 1 [⟨(⟨2, ![8192, 1024]⟩ : Shape), V m c main_arg1⟩, ⟨(⟨2, ![8192, 1024]⟩ : Shape), V m c main_arg0⟩] h2
/-- The weight stack. -/
abbrev Wof (c : Dev nD) : (⟨2, ![2048, 4096]⟩ : Shape).Idx → EReal := V m c main_v3
/-- The biases, off the bias row. -/
abbrev Bof (c : Dev nD) : (⟨1, ![4096]⟩ : Shape).Idx → EReal := fun i => V m c main_v4 (ix2 (0 : Fin 1) (i 0))
/-- The cell state. -/
abbrev Cof (c : Dev nD) : (⟨2, ![8192, 1024]⟩ : Shape).Idx → EReal := V m c main_arg2

/-! ## What a point writes back -/

/-- Point `t` writes back rows `128·t …` of the specification's new hidden state. -/
theorem flushed5_eq (c : Dev nD) (t : Fin cfg0.N) :
    (dats m 0 c).flushed 5 t = ((cfg0.win 5).blk t).view.read (Elt Ideal) (hiddenNew (Xof m h2 c) (Wof m c) (Bof m c) (Cof m c)) := by
  show (cfg0.win 5).cut (grid0.coords t) ((dats m 0 c).after 5 t) = _
  rw [after0_5]
  obtain ⟨e00, e01, e10, e11, e20, e21, e30, e31, e40, e41, e50, e51, e60, e61⟩ := idx_facts t
  refine funext fun (y : S128x1024.Idx) => ?_
  obtain ⟨p, j, rfl⟩ : ∃ (p : Fin 128) (j : Fin 1024), y = ix2 p j := ⟨y 0, y 1, eq_ix2 y⟩
  have he : ((cfg0.win 5).blk t).view.emb (ix2 p j) = ix2 (row t p) j := funext fun a => Fin.ext (by
    match a with
    | ⟨0, _⟩ => show win0_5.index t (0 : Fin 2) * 128 + 1 * p.val = 128 * t.val + p.val; omega
    | ⟨1, _⟩ => show win0_5.index t (1 : Fin 2) * 1024 + 1 * j.val = j.val; omega)
  show hTile (iblk m c 0 t) (iblk m c 1 t) (iblk m c 2 t) (iblk m c 3 t) (iblk m c 4 t) (ix2 p j)
    = hiddenNew (Xof m h2 c) (Wof m c) (Bof m c) (Cof m c) (((cfg0.win 5).blk t).view.emb (ix2 p j))
  rw [he, hiddenNew_ix2]
  exact hTile_spec (iblk m c 0 t) (iblk m c 1 t) (iblk m c 2 t) (iblk m c 3 t) (iblk m c 4 t) (Xof m h2 c) (Wof m c) (Bof m c) (Cof m c) (row t p) p
    (joined_at (iblk m c 0 t) (iblk m c 1 t) (V m c main_arg1) (V m c main_arg0) h2 (row t p) p (fun k => rows0_at m c t p k) (fun k => rows1_at m c t p k))
    (fun k n => stack_at m c t k n) (fun n => bias_at m c t n) (fun j => rows2_at m c t p j) j

/-- Point `t` writes back rows `128·t …` of the specification's new cell state. -/
theorem flushed6_eq (c : Dev nD) (t : Fin cfg0.N) :
    (dats m 0 c).flushed 6 t = ((cfg0.win 6).blk t).view.read (Elt Ideal) (cellNew (Xof m h2 c) (Wof m c) (Bof m c) (Cof m c)) := by
  show (cfg0.win 6).cut (grid0.coords t) ((dats m 0 c).after 6 t) = _
  rw [after0_6]
  obtain ⟨e00, e01, e10, e11, e20, e21, e30, e31, e40, e41, e50, e51, e60, e61⟩ := idx_facts t
  refine funext fun (y : S128x1024.Idx) => ?_
  obtain ⟨p, j, rfl⟩ : ∃ (p : Fin 128) (j : Fin 1024), y = ix2 p j := ⟨y 0, y 1, eq_ix2 y⟩
  have he : ((cfg0.win 6).blk t).view.emb (ix2 p j) = ix2 (row t p) j := funext fun a => Fin.ext (by
    match a with
    | ⟨0, _⟩ => show win0_6.index t (0 : Fin 2) * 128 + 1 * p.val = 128 * t.val + p.val; omega
    | ⟨1, _⟩ => show win0_6.index t (1 : Fin 2) * 1024 + 1 * j.val = j.val; omega)
  show cTile (iblk m c 0 t) (iblk m c 1 t) (iblk m c 2 t) (iblk m c 3 t) (iblk m c 4 t) (ix2 p j)
    = cellNew (Xof m h2 c) (Wof m c) (Bof m c) (Cof m c) (((cfg0.win 6).blk t).view.emb (ix2 p j))
  rw [he, cellNew_ix2]
  exact cTile_spec (iblk m c 0 t) (iblk m c 1 t) (iblk m c 2 t) (iblk m c 3 t) (iblk m c 4 t) (Xof m h2 c) (Wof m c) (Bof m c) (Cof m c) (row t p) p
    (joined_at (iblk m c 0 t) (iblk m c 1 t) (V m c main_arg1) (V m c main_arg0) h2 (row t p) p (fun k => rows0_at m c t p k) (fun k => rows1_at m c t p k))
    (fun k n => stack_at m c t k n) (fun n => bias_at m c t n) (fun j => rows2_at m c t p j) j

/-! ## The blocks cover the arrays -/

theorem mem_blk5 (t : Fin cfg0.N) (i : S8192x1024.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v5_0).slice (win0_5.rect t)).set ↔ _
  rw [View.set_slice_whole, Rect.mem_set_unit]
  exact Iff.rfl

theorem mem_blk6 (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v5_1).slice (win0_6.rect t)).set ↔ _
  rw [View.set_slice_whole, Rect.mem_set_unit]
  exact Iff.rfl

/-- The block that holds batch row `r`. -/
def blockOfRow (i : S8192x1024.Idx) : Fin cfg0.N := ⟨(i 0).val / 128, by
  have hi0 : (i 0).val < 8192 := (i 0).isLt
  show (i 0).val / 128 < grid0.N
  rw [N_0]; omega⟩

/-- Every entry of the new hidden state's array is in the block of its row. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have ht : (blockOfRow i).val = (i 0).val / 128 := rfl
  obtain ⟨e00, e01, e10, e11, e20, e21, e30, e31, e40, e41, e50, e51, e60, e61⟩ := idx_facts (blockOfRow i)
  refine ⟨blockOfRow i, flush0_5 _, ?_⟩
  rw [mem_blk5]
  intro a
  match a with
  | ⟨0, _⟩ => show win0_5.index (blockOfRow i) (0 : Fin 2) * 128 ≤ (i 0).val ∧ (i 0).val < win0_5.index (blockOfRow i) (0 : Fin 2) * 128 + 128; omega
  | ⟨1, _⟩ => show win0_5.index (blockOfRow i) (1 : Fin 2) * 1024 ≤ (i 1).val ∧ (i 1).val < win0_5.index (blockOfRow i) (1 : Fin 2) * 1024 + 1024; omega

/-- The same for the new cell state's array. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have ht : (blockOfRow i).val = (i 0).val / 128 := rfl
  obtain ⟨e00, e01, e10, e11, e20, e21, e30, e31, e40, e41, e50, e51, e60, e61⟩ := idx_facts (blockOfRow i)
  refine ⟨blockOfRow i, flush0_6 _, ?_⟩
  rw [mem_blk6]
  intro a
  match a with
  | ⟨0, _⟩ => show win0_6.index (blockOfRow i) (0 : Fin 2) * 128 ≤ (i 0).val ∧ (i 0).val < win0_6.index (blockOfRow i) (0 : Fin 2) * 128 + 128; omega
  | ⟨1, _⟩ => show win0_6.index (blockOfRow i) (1 : Fin 2) * 1024 ≤ (i 1).val ∧ (i 1).val < win0_6.index (blockOfRow i) (1 : Fin 2) * 1024 + 1024; omega

/-! ## The arrays after the run -/

/-- The specification's inputs as the launch finds them are the specification's inputs of the starting memory. -/
theorem Xof_eq (c : Dev nD) : Xof m h2 c = concatenate (⟨2, ![8192, 2048]⟩ : Shape) 1 [⟨(⟨2, ![8192, 1024]⟩ : Shape), m ((c : Thread nD τ).loc main_arg1)⟩, ⟨(⟨2, ![8192, 1024]⟩ : Shape), m ((c : Thread nD τ).loc main_arg0)⟩] h2 := by
  show concatenate (⟨2, ![8192, 2048]⟩ : Shape) 1 [⟨(⟨2, ![8192, 1024]⟩ : Shape), V m c main_arg1⟩, ⟨(⟨2, ![8192, 1024]⟩ : Shape), V m c main_arg0⟩] h2 = _
  rw [V_main_arg1 m c, V_main_arg0 m c]

theorem Wof_eq (c : Dev nD) : Wof m c
    = transpose S2048x4096 [1, 0] (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0) transposes_S4096x2048_S2048x4096_1_0 := by
  show V m c main_v3 = _
  rw [V_stack]
  rfl

theorem Bof_eq (c : Dev nD) : Bof m c
    = concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0 := by
  funext i
  obtain ⟨n, rfl⟩ : ∃ n : Fin 4096, i = ix1 n := ⟨i 0, eq_ix1 i⟩
  show V m c main_v4 (ix2 (0 : Fin 1) n) = _
  rw [V_bias]
  exact shapeCast_apply _ shapeCasts_S4096_S1x4096 (ix2 (0 : Fin 1) n) (ix1 n) (by
    rw [Shape.rowMajor_val_one, Shape.rowMajor_val_two]
    show n.val = (0 : Fin 1).val * 4096 + n.val
    simp)

theorem Cof_eq (c : Dev nD) : Cof m c = m ((c : Thread nD τ).loc main_arg2) := V_main_arg2 m c

/-- After the run the new hidden state's array is the specification's, of the starting memory's arrays. -/
theorem final5 (c : Dev nD) : (dats m 0 c).arrAt 5 cfg0.N = hiddenNew (concatenate (⟨2, ![8192, 2048]⟩ : Shape) 1 [⟨(⟨2, ![8192, 1024]⟩ : Shape), m ((c : Thread nD τ).loc main_arg1)⟩, ⟨(⟨2, ![8192, 1024]⟩ : Shape), m ((c : Thread nD τ).loc main_arg0)⟩] h2)
        (transpose S2048x4096 [1, 0] (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0) transposes_S4096x2048_S2048x4096_1_0)
        (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0)
        (m ((c : Thread nD τ).loc main_arg2)) := by
  rw [(dats m 0 c).arrAt_eq_of_cover 5 (hiddenNew (Xof m h2 c) (Wof m c) (Bof m c) (Cof m c)) (fun t _ => flushed5_eq m h2 c t) cover5,
    Xof_eq, Wof_eq, Bof_eq, Cof_eq]

/-- After the run the new cell state's array is the specification's. -/
theorem final6 (c : Dev nD) : (dats m 0 c).arrAt 6 cfg0.N = cellNew (concatenate (⟨2, ![8192, 2048]⟩ : Shape) 1 [⟨(⟨2, ![8192, 1024]⟩ : Shape), m ((c : Thread nD τ).loc main_arg1)⟩, ⟨(⟨2, ![8192, 1024]⟩ : Shape), m ((c : Thread nD τ).loc main_arg0)⟩] h2)
        (transpose S2048x4096 [1, 0] (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0) transposes_S4096x2048_S2048x4096_1_0)
        (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0)
        (m ((c : Thread nD τ).loc main_arg2)) := by
  rw [(dats m 0 c).arrAt_eq_of_cover 6 (cellNew (Xof m h2 c) (Wof m c) (Bof m c) (Cof m c)) (fun t _ => flushed6_eq m h2 c t) cover6,
    Xof_eq, Wof_eq, Bof_eq, Cof_eq]

/-- The run with both results named and the eleven arguments as they began. -/
theorem run_values : θ_run defs (onTc (τ := τ) (main (F := Ideal))) ⟨m, fun _ => 0, ρ⟩ fun r => ∀ c : Dev nD,
      r.2.mem ((c : Thread nD τ).loc main_v5_0) = hiddenNew (concatenate (⟨2, ![8192, 2048]⟩ : Shape) 1 [⟨(⟨2, ![8192, 1024]⟩ : Shape), m ((c : Thread nD τ).loc main_arg1)⟩, ⟨(⟨2, ![8192, 1024]⟩ : Shape), m ((c : Thread nD τ).loc main_arg0)⟩] h2)
        (transpose S2048x4096 [1, 0] (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0) transposes_S4096x2048_S2048x4096_1_0)
        (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0)
        (m ((c : Thread nD τ).loc main_arg2))
      ∧ r.2.mem ((c : Thread nD τ).loc main_v5_1) = cellNew (concatenate (⟨2, ![8192, 2048]⟩ : Shape) 1 [⟨(⟨2, ![8192, 1024]⟩ : Shape), m ((c : Thread nD τ).loc main_arg1)⟩, ⟨(⟨2, ![8192, 1024]⟩ : Shape), m ((c : Thread nD τ).loc main_arg0)⟩] h2)
        (transpose S2048x4096 [1, 0] (concatenate S4096x2048 0 [⟨S1024x2048, m ((c : Thread nD τ).loc main_arg3)⟩, ⟨S1024x2048, m ((c : Thread nD τ).loc main_arg5)⟩, ⟨S1024x2048, m ((c : Thread nD τ).loc main_arg7)⟩, ⟨S1024x2048, m ((c : Thread nD τ).loc main_arg9)⟩] concatenates_S1024x2048_S1024x2048_S1024x2048_S1024x2048_S4096x2048_d0) transposes_S4096x2048_S2048x4096_1_0)
        (concatenate S4096 0 [⟨S1024, m ((c : Thread nD τ).loc main_arg4)⟩, ⟨S1024, m ((c : Thread nD τ).loc main_arg6)⟩, ⟨S1024, m ((c : Thread nD τ).loc main_arg8)⟩, ⟨S1024, m ((c : Thread nD τ).loc main_arg10)⟩] concatenates_S1024_S1024_S1024_S1024_S4096_d0)
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 5).trans (final5 m h2 c), ((h c).1 6).trans (final6 m h2 c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Arrays

end
-- ==== Proof.RefCell.lean ====
/-
  The host program's two results, read entry by entry, are the cell step of the specification.

  The program joins hidden state and input into `X`, stacks and transposes the weights into `W`, joins the biases
  into `bs`, forms `X · W` with the bias row added to every row, cuts the 4096 columns into the four gates, and
  applies σ (spelt `1 / (1 + e^(−x))`), tanh and the two gated products. Reading each operation at an entry, the
  pre-activation at `(r, n)` is `gate X W bs r n` and the two results are `cellNew` and `hiddenNew`.
  `X`, `W` and `bs` are kept as the program's own concatenations: the other program forms the same ones.
-/
import proofs.«146950_j57432302682693_1_alg».proof.Proof.Gen.ReferenceIdeal.Run
import proofs.«146950_j57432302682693_1_alg».proof.Proof.Gen.ReferenceIdeal.Read
import proofs.«146950_j57432302682693_1_alg».proof.Proof.CellSpec

noncomputable section

namespace Cert.ReferenceIdeal.Cell

open Cert.ReferenceIdeal Cert.ReferenceIdeal.Gen Cert.ReferenceIdeal.Read
open Idealize.ShloMosaic Idealize.ShloMosaic.TcCoe Idealize.ShloMosaic.ValueIdx Cert.CellSpec

variable (x0 x1 x2 : (⟨S8192x1024, .f32⟩ : BufTy).Contents (Elt Ideal)) (x3 x5 x7 x9 : (⟨S1024x2048, .f32⟩ : BufTy).Contents (Elt Ideal))
  (x4 x6 x8 x10 : (⟨S1024, .f32⟩ : BufTy).Contents (Elt Ideal))

/-- The pre-activation at batch row `r`, gate column `n`: the product's entry plus the bias. -/
theorem gate_at (r : Fin 8192) (n : Fin 4096) :
    val_main_v7 (F := Ideal) x0 x1 x3 x4 x5 x6 x7 x8 x9 x10 (ix2 r n)
      = gate (val_main_v0 (F := Ideal) x0 x1) (val_main_v3 (F := Ideal) x3 x5 x7 x9) (val_main_v2 (F := Ideal) x4 x6 x8 x10) r n := by
  rw [val_main_v7_apply, val_main_v4_apply, val_main_v6_apply, val_main_v5_apply]
  have el : ∀ k : Fin 2048, lidx_main_v4 (ix2 r n) k = ix2 r k := fun k => funext fun a => by
    match a with
    | ⟨0, _⟩ => rfl
    | ⟨1, _⟩ => rfl
  have er : ∀ k : Fin 2048, ridx_main_v4 (ix2 r n) k = ix2 k n := fun k => funext fun a => by
    match a with
    | ⟨0, _⟩ => rfl
    | ⟨1, _⟩ => rfl
  have eb : idx_main_v5 (idx_main_v6 (ix2 r n)) = ix1 n := funext fun a => by
    match a with
    | ⟨0, _⟩ => rfl
  simp only [el, er, eb]
  rfl

/-- Where the four column cuts read the pre-activations. -/
theorem cutF (r : Fin 8192) (j : Fin 1024) : idx_main_v8 (ix2 r j) = ix2 r (colF j) := funext fun a => by
  match a with
  | ⟨0, _⟩ => rfl
  | ⟨1, _⟩ => rfl
theorem cutI (r : Fin 8192) (j : Fin 1024) : idx_main_v9 (ix2 r j) = ix2 r (colI j) := funext fun a => by
  match a with
  | ⟨0, _⟩ => rfl
  | ⟨1, _⟩ => rfl
theorem cutO (r : Fin 8192) (j : Fin 1024) : idx_main_v10 (ix2 r j) = ix2 r (colO j) := funext fun a => by
  match a with
  | ⟨0, _⟩ => rfl
  | ⟨1, _⟩ => rfl
theorem cutC (r : Fin 8192) (j : Fin 1024) : idx_main_v11 (ix2 r j) = ix2 r (colC j) := funext fun a => by
  match a with
  | ⟨0, _⟩ => rfl
  | ⟨1, _⟩ => rfl

/-- The second result is the new cell state. -/
theorem cell_eq :
    val_main_v33 (F := Ideal) x0 x1 x2 x3 x4 x5 x6 x7 x8 x9 x10
      = cellNew (val_main_v0 (F := Ideal) x0 x1) (val_main_v3 (F := Ideal) x3 x5 x7 x9) (val_main_v2 (F := Ideal) x4 x6 x8 x10) x2 := by
  funext i
  obtain ⟨r, j, rfl⟩ : ∃ (r : Fin 8192) (j : Fin 1024), i = ix2 r j := ⟨i 0, i 1, eq_ix2 i⟩
  rw [cellNew_ix2]
  simp only [val_main_v33_apply, val_main_v31_apply, val_main_v32_apply, val_main_v17_apply, val_main_v23_apply, val_main_v30_apply,
    val_main_v16_apply, val_main_v22_apply, val_main_v15_apply, val_main_v21_apply, val_main_v14_apply, val_main_v20_apply,
    val_main_v13_apply, val_main_v19_apply, val_main_v12_apply, val_main_v18_apply, val_main_v8_apply, val_main_v9_apply, val_main_v11_apply,
    val_main_cst_apply, val_main_cst_0_apply, val_main_cst_1_apply, val_main_cst_2_apply, cutF, cutI, cutC, gate_at,
    Ideal.ofBits_def, one_f32, logistic_spelt]
  rfl

/-- The first result is the new hidden state. -/
theorem hidden_eq :
    val_main_v35 (F := Ideal) x0 x1 x2 x3 x4 x5 x6 x7 x8 x9 x10
      = hiddenNew (val_main_v0 (F := Ideal) x0 x1) (val_main_v3 (F := Ideal) x3 x5 x7 x9) (val_main_v2 (F := Ideal) x4 x6 x8 x10) x2 := by
  funext i
  obtain ⟨r, j, rfl⟩ : ∃ (r : Fin 8192) (j : Fin 1024), i = ix2 r j := ⟨i 0, i 1, eq_ix2 i⟩
  rw [hiddenNew_ix2, val_main_v35_apply, val_main_v34_apply, cell_eq, cellNew_ix2]
  simp only [val_main_v29_apply, val_main_v28_apply, val_main_v27_apply, val_main_v26_apply, val_main_v25_apply, val_main_v24_apply,
    val_main_v10_apply, val_main_cst_3_apply, val_main_cst_4_apply, cutO, gate_at, Ideal.ofBits_def, one_f32, logistic_spelt]
  rfl

end Cert.ReferenceIdeal.Cell

end
-- ==== Proof.lean ====
/-
  The fused LSTM-cell launch against the plain host program: the five claims.

  Both programs compute, for every batch row, the four gates' pre-activations `X · W + bs` (`X` the row's hidden state
  followed by its input, `W` the four weight matrices stacked and transposed, `bs` the four biases joined), and from them
  the new cell state `σ f · c + σ i · tanh ĉ` and the new hidden state `σ o · tanh c'`. The launch does it 128 rows at a time
  with the weights narrowed to the matrix unit's input format, which is the identity on extended reals, and with σ as
  one operation where the host spells `1 / (1 + e^(−x))`: one function on every extended real. The sums are the same sums,
  term by term in the same order, so no law of arithmetic is used and the inputs' finiteness is never opened.

  The two kernel programs run to their end and leave their arguments alone (`Cell.frame`: the run of the launch over its
  64 blocks, after five host steps that write no argument); the host program's frame is its run with the results dropped;
  the idealized kernel program is the kernel program's own text, so there is nothing to preserve; and the two idealized
  programs' results are one function of agreeing arguments (`Arrays.run_values` beside the host program's run read entry
  by entry, `Cell.hidden_eq` and `Cell.cell_eq`).
-/
import proofs.«146950_j57432302682693_1_alg».proof.Defs
import proofs.«146950_j57432302682693_1_alg».proof.Proof.Gen.Kernel
import proofs.«146950_j57432302682693_1_alg».proof.Proof.Gen.KernelIdeal
import proofs.«146950_j57432302682693_1_alg».proof.Proof.Gen.ReferenceIdeal
import proofs.«146950_j57432302682693_1_alg».proof.Proof.Gen.Pre_finite_inputs
import proofs.«146950_j57432302682693_1_alg».proof.Proof.CellRunBits
import proofs.«146950_j57432302682693_1_alg».proof.Proof.CellRunIdeal
import proofs.«146950_j57432302682693_1_alg».proof.Proof.CellArrays
import proofs.«146950_j57432302682693_1_alg».proof.Proof.RefCell
import Idealize.ShloMosaic.Adequacy
import Idealize.ShloMosaic.Init

noncomputable section

namespace Cert.Proof

open Idealize.ShloMosaic Idealize.SL.Sem

theorem frame_k : Cert.frame_Kernel := fun m ρ _ => Cert.Kernel.Cell.frame m ρ

theorem frame_ki : Cert.frame_KernelIdeal := fun m ρ _ => Cert.KernelIdeal.Cell.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the eleven arguments, the launch's two arrays and the host program's two results are the
    specification's new hidden state and new cell state of the same arrays. -/
theorem algebraic : Cert.algebraic_KernelIdeal_ReferenceIdeal := by
  intro m ρ m' ρ' _ hagree
  refine ⟨_, _, Cert.KernelIdeal.Arrays.run_values m ρ Cert.ReferenceIdeal.Gen.concatenates_S8192x1024_S8192x1024_S8192x2048_d1, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.Cell.hidden_eq, a0, a1, a2, a3, a4, a5, a6, a7, a8, a9, a10]
    rfl
  · obtain ⟨a0, a1, a2, a3, a4, a5, a6, a7, a8, a9, a10⟩ := hagree c
    refine (Cert.ReferenceIdeal.Read.val_main_v33_eq _ _ _ _ _ _ _ _ _ _ _).trans ?_
    rw [Cert.ReferenceIdeal.Cell.cell_eq, a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
